-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x64 : Shape := ⟨2, ![100, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S100x64 1) : IVec S_ 1 :=
  let main_c_5 : IVec S_ 1 := constantI S_ 1 1#1
  let main_v17 : IVec S_ 1 := (fun x v => Host.reduce IntOp.andi x v reducesTo_S100x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x100 .f32) (main_arg3 : FVec F S100 .f32) (main_arg4 : FVec F S100x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x100 .f32 := Host.absf main_arg2
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x64 .f32 := Host.absf main_arg4
  let main_cst_4 : FVec F S_ .f32 := constant S_ .f32 0x7F800000#32
  let main_v15 : FVec F S100x64 .f32 := broadcastInDim S100x64 ![] bcast_S_S100x64 main_cst_4
  let main_v16 : IVec S100x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x64 : Shape := ⟨2, ![100, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x100 : Shape := ⟨2, ![50000, 100]⟩
abbrev S10000x128 : Shape := ⟨2, ![10000, 128]⟩
abbrev S10000x100 : Shape := ⟨2, ![10000, 100]⟩
abbrev S850000x100 : Shape := ⟨2, ![850000, 100]⟩
abbrev S50000x64 : Shape := ⟨2, ![50000, 64]⟩
abbrev S10000x64 : Shape := ⟨2, ![10000, 64]⟩
abbrev S1x100 : Shape := ⟨2, ![1, 100]⟩
abbrev S850000x64 : Shape := ⟨2, ![850000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 84
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x100, .f32⟩
  | .hbm, ⟨3, _⟩ => ⟨S100, .f32⟩
  | .hbm, ⟨4, _⟩ => ⟨S100x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x100, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x100, .f32⟩
  | .hbm, ⟨59, _⟩ => ⟨S850000x1, .f32⟩
  | .hbm, ⟨60, _⟩ => ⟨S850000x100, .f32⟩
  | .hbm, ⟨61, _⟩ => ⟨S850000x100, .f32⟩
  | .hbm, ⟨62, _⟩ => ⟨S_, .f32⟩
  | .hbm, ⟨63, _⟩ => ⟨S50000x100, .f32⟩
  | .hbm, ⟨64, _⟩ => ⟨S850000x1, .i32⟩
  | .hbm, ⟨65, _⟩ => ⟨S50000x100, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x100, .f32⟩
  | .local _ .vmem, ⟨3, _⟩ => ⟨S10000x100, .f32⟩
  | .local _ .vmem, ⟨4, _⟩ => ⟨S10000x100, .f32⟩
  | .local _ .vmem, ⟨5, _⟩ => ⟨S10000x100, .f32⟩
  | .local _ .vmem, ⟨6, _⟩ => ⟨S10000x100, .f32⟩
  | .local _ .vmem, ⟨7, _⟩ => ⟨S100, .f32⟩
  | .local _ .vmem, ⟨8, _⟩ => ⟨S100x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64, .f32⟩
  | .local _ .vmem, ⟨14, _⟩ => ⟨S10000x64, .f32⟩
  | .local _ .vmem, ⟨15, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x100_S128x100_0_0 : ∀ a, (![0, 0] : Fin 2 → Nat) a + S128x100.size a ≤ S128x100.size a
  h_S128x100 : 0 < S128x100.numel
  inb_S10000x100_S10000x100_0_0 : ∀ a, (![0, 0] : Fin 2 → Nat) a + S10000x100.size a ≤ S10000x100.size a
  h_S10000x100 : 0 < S10000x100.numel
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  shapeCasts_S10000x100_S10000x100 : S10000x100.ShapeCasts S10000x100
  inb_S100_S100_0 : ∀ a, (![0] : Fin 1 → Nat) a + S100.size a ≤ S100.size a
  h_S100 : 0 < S100.numel
  shapeCasts_S100_S1x100 : S100.ShapeCasts S1x100
  broadcasts_S1x100_S10000x100 : S1x100.Broadcasts S10000x100
  inb_S100x64_S100x64_0_0 : ∀ a, (![0, 0] : Fin 2 → Nat) a + S100x64.size a ≤ S100x64.size a
  h_S100x64 : 0 < S100x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x100_S10000x100_1_0_0_1_n_n_wf : DotDims.WF S10000x128 S128x100 S10000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S10000x100_S100x64_S10000x64_1_0_0_1_n_n_wf : DotDims.WF S10000x100 S100x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S128x100.size a
  hwx0_1 : ∀ i : grid0.Coords, EltTy.bits .f32 = 32 ∨ (Rect.block (s := S128x100) S128x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x100.size a ≤ S50000x100.size a
  hwx0_2 : ∀ i : grid0.Coords, EltTy.bits .f32 = 32 ∨ (Rect.block (s := S50000x100) S10000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S50000x100.size a
  hwx1_0 : ∀ i : grid1.Coords, EltTy.bits .f32 = 32 ∨ (Rect.block (s := S50000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100.size a ≤ S100.size a
  hwx1_1 : ∀ i : grid1.Coords, EltTy.bits .f32 = 32 ∨ (Rect.block (s := S100) S100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x64.size a ≤ S100x64.size a
  hwx1_2 : ∀ i : grid1.Coords, EltTy.bits .f32 = 32 ∨ (Rect.block (s := S100x64) S100x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x100_S10000x100_1_0_0_1_n_n : DotDims S10000x128 S128x100 S10000x100 where
  lhsContracting := [1]
  rhsContracting := [0]
  lhsNonContracting := [0]
  rhsNonContracting := [1]
  lhsBatch := []
  rhsBatch := []
  wf := dot_S10000x128_S128x100_S10000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S10000x100_S100x64_S10000x64_1_0_0_1_n_n : DotDims S10000x100 S100x64 S10000x64 where
  lhsContracting := [1]
  rhsContracting := [0]
  lhsNonContracting := [0]
  rhsNonContracting := [1]
  lhsBatch := []
  rhsBatch := []
  wf := dot_S10000x100_S100x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S100x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x64 : Shape := ⟨2, ![100, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x100 : Shape := ⟨2, ![50000, 100]⟩
abbrev S_ : Shape := ⟨0, ![]⟩
abbrev S850000x1 : Shape := ⟨2, ![850000, 1]⟩
abbrev S850000x100 : Shape := ⟨2, ![850000, 100]⟩
abbrev S1x100 : Shape := ⟨2, ![1, 100]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S128x100, .f32⟩
  | 3 => ⟨S100, .f32⟩
  | 4 => ⟨S100x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x100, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x100, .f32⟩
  | 59 => ⟨S850000x1, .f32⟩
  | 60 => ⟨S850000x100, .f32⟩
  | 61 => ⟨S850000x100, .f32⟩
  | 62 => ⟨S_, .f32⟩
  | 63 => ⟨S50000x100, .f32⟩
  | 64 => ⟨S850000x1, .i32⟩
  | 65 => ⟨S50000x100, .f32⟩
  | 66 => ⟨S1x100, .f32⟩
  | 67 => ⟨S50000x100, .f32⟩
  | 68 => ⟨S50000x100, .f32⟩
  | 69 => ⟨S_, .f32⟩
  | 70 => ⟨S50000x100, .f32⟩
  | 71 => ⟨S50000x100, .f32⟩
  | 72 => ⟨S50000x64, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x1, .f32⟩
  | 119 => ⟨S850000x64, .f32⟩
  | 120 => ⟨S850000x64, .f32⟩
  | 121 => ⟨S_, .f32⟩
  | 122 => ⟨S50000x64, .f32⟩
  | 123 => ⟨S850000x1, .i32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S_, .f32⟩
  | 2 => ⟨S50000, .f32⟩
  | 3 => ⟨S50000x1, .f32⟩
  | 4 => ⟨S50000x1, .f32⟩
  | 5 => ⟨S_, .f32⟩
  | 6 => ⟨S50000x1, .f32⟩
  | 7 => ⟨S50000x1, .f32⟩
  | 8 => ⟨S50000x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_23 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  dot_S50000x128_S128x100_S50000x100_1_0_0_1_n_n_wf : DotDims.WF S50000x128 S128x100 S50000x100 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x64_S50000x64_1_0_0_1_n_n_wf : DotDims.WF S50000x100 S100x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x64_S50000x64_1_0_0_1_n_n : DotDims S50000x100 S100x64 S50000x64 where
  lhsContracting := [1]
  rhsContracting := [0]
  lhsNonContracting := [0]
  rhsNonContracting := [1]
  lhsBatch := []
  rhsBatch := []
  wf := dot_S50000x100_S100x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Reg0.lean ====
import proofs.«146412_j2869038154062_1_alg».proof.Proof.Gen.KernelIdeal.Frame
import proofs.«146412_j2869038154062_1_alg».proof.Proof.RefRead
import proofs.«146412_j2869038154062_1_alg».proof.Proof.LibPlainMatmul

set_option maxRecDepth 16384

noncomputable section

namespace Cert.KernelIdeal.Reg0

open Cert.KernelIdeal Cert.KernelIdeal.Gen
open Idealize.ShloMosaic Idealize.ShloMosaic.TcCoe Idealize.SL.Sem
open Idealize.ShloMosaic.Pipeline (Dat)
open scoped BigOperators

/-- The zero offset of a whole-block access. -/
private theorem hz : (![0, 0] : Fin 2 → Nat) = fun _ => 0 := funext fun a => by fin_cases a <;> rfl

/-- The body's payload at entry (p, q): row p of the left block against column q of the right block. -/
private theorem pay_apply (v0 : Vec Ideal S10000x128 .f32) (v2 : Vec Ideal S128x100 .f32) (p : Fin 10000) (q : Fin 100) :
    k0_pay1 (F := Ideal) v0 v2 (ValueIdx.ix2 p q) = ∑ k : Fin 128, v0 (ValueIdx.ix2 p k) * v2 (ValueIdx.ix2 k q) := by
  unfold k0_pay1
  exact Cert.Lib.PlainMatmul.apply dot_S10000x128_S128x100_S10000x100_1_0_0_1_n_n rfl rfl rfl rfl rfl rfl none _ _ p q

/-- The printed index maps over the five grid points: the row-blocked windows sit at block row t, the whole window at 0. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back: block t of the whole product. -/
private theorem flushed_eq (V : (c : Dev nD) → (b : Ref sig .tc) → Buf (Elt Ideal) ((c : Thread nD τ).loc b)) (c : Dev nD) (x0 : (⟨Cert.ReferenceIdeal.S50000x128, .f32⟩ : BufTy).Contents (Elt Ideal)) (x2 : (⟨Cert.ReferenceIdeal.S128x100, .f32⟩ : BufTy).Contents (Elt Ideal))
    (h0 : V c main_arg0 = x0) (h2 : V c main_arg2 = x2) (t : Fin cfg0.N) :
    (dat0 (F := Ideal) V c).flushed 2 t = ((cfg0.win 2).blk t).view.read (Elt Ideal) (Cert.ReferenceIdeal.ReadP.val_main_v7 (F := Ideal) x0 x2) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x100) hz]
  funext y
  obtain ⟨p, q, rfl⟩ : ∃ (p : Fin 10000) (q : Fin 100), y = ValueIdx.ix2 p q := ⟨y 0, y 1, ValueIdx.eq_ix2 y⟩
  show k0_pay1 (F := Ideal) (iblk0 V c 0 t) (iblk0 V c 1 t) (ValueIdx.ix2 p q) = Cert.ReferenceIdeal.ReadP.val_main_v7 (F := Ideal) x0 x2 (((cfg0.win 2).blk t).view.emb (ValueIdx.ix2 p q))
  refine (pay_apply _ _ p q).trans ?_
  rw [Cert.ReferenceIdeal.ReadP.val_main_v7_apply]
  refine Finset.sum_congr rfl fun k _ => ?_
  obtain ⟨e00, e01, e10, e11, e20, e21⟩ := idx_facts t
  have hp : p.val < 10000 := p.isLt
  have hq : q.val < 100 := q.isLt
  have hk : k.val < 128 := k.isLt
  have hl : ((cfg0.win 0).blk t).view.emb (ValueIdx.ix2 p k) = Cert.ReferenceIdeal.ReadP.lidx_main_v7 (((cfg0.win 2).blk t).view.emb (ValueIdx.ix2 p q)) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : ((cfg0.win 1).blk t).view.emb (ValueIdx.ix2 k q) = Cert.ReferenceIdeal.ReadP.ridx_main_v7 (((cfg0.win 2).blk t).view.emb (ValueIdx.ix2 p q)) k := by
    funext a; apply Fin.ext
    match a with
    | ⟨0, _⟩ => show win0_1.index t (0 : Fin 2) * 128 + 1 * k.val = k.val; omega
    | ⟨1, _⟩ => show win0_1.index t (1 : Fin 2) * 100 + 1 * q.val = win0_2.index t (1 : Fin 2) * 100 + 1 * q.val; omega
  have a0 : iblk0 V c 0 t (ValueIdx.ix2 p k) = x0 (Cert.ReferenceIdeal.ReadP.lidx_main_v7 (((cfg0.win 2).blk t).view.emb (ValueIdx.ix2 p q)) k) := by
    unfold iblk0
    show V c main_arg0 (((cfg0.win 0).blk t).view.emb (ValueIdx.ix2 p k)) = _
    rw [h0, hl]
  have a1 : iblk0 V c 1 t (ValueIdx.ix2 k q) = x2 (Cert.ReferenceIdeal.ReadP.ridx_main_v7 (((cfg0.win 2).blk t).view.emb (ValueIdx.ix2 p q)) k) := by
    unfold iblk0
    show V c main_arg2 (((cfg0.win 1).blk t).view.emb (ValueIdx.ix2 k q)) = _
    rw [h2, hr]
  rw [a0, a1]

/-- An index of the output array lies in grid point t's block iff each coordinate lies in the block's range on its axis. -/
private theorem mem_blk (t : Fin cfg0.N) (i : S50000x100.Idx) :
    i ∈ ((cfg0.win 2).blk t).view.set ↔ ∀ a : Fin 2, win0_2.index t a * S10000x100.size a ≤ (i a).val ∧ (i a).val < win0_2.index t a * S10000x100.size a + S10000x100.size a := by
  show i ∈ ((View.whole main_v32).slice (win0_2.rect t)).set ↔ _
  rw [View.set_slice_whole, Rect.mem_set_unit]
  exact Iff.rfl

/-- The first region's output array after its five grid points: the whole product of the two arrays it reads. -/
theorem final (V : (c : Dev nD) → (b : Ref sig .tc) → Buf (Elt Ideal) ((c : Thread nD τ).loc b)) (c : Dev nD) (x0 : (⟨Cert.ReferenceIdeal.S50000x128, .f32⟩ : BufTy).Contents (Elt Ideal)) (x2 : (⟨Cert.ReferenceIdeal.S128x100, .f32⟩ : BufTy).Contents (Elt Ideal))
    (h0 : V c main_arg0 = x0) (h2 : V c main_arg2 = x2) :
    (dat0 (F := Ideal) V c).arrAt 2 cfg0.N = Cert.ReferenceIdeal.ReadP.val_main_v7 (F := Ideal) x0 x2 := by
  refine (dat0 (F := Ideal) V c).arrAt_eq_of_cover 2 _ (fun t _ => flushed_eq V c x0 x2 h0 h2 t) fun i => ?_
  -- row r of the array lies in the block of grid point r / 10000
  have hi0 : (i 0).val < 50000 := (i 0).isLt
  have hi1 : (i 1).val < 100 := (i 1).isLt
  have hN : grid0.N = 5 := N_0
  obtain ⟨t, ht⟩ : ∃ t : Fin cfg0.N, t.val = (i 0).val / 10000 := ⟨⟨(i 0).val / 10000, by show _ < grid0.N; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 100 ≤ (i 1).val ∧ (i 1).val < win0_2.index t (1 : Fin 2) * 100 + 100; omega

end Cert.KernelIdeal.Reg0

end
-- ==== Proof.Reg1.lean ====
import proofs.«146412_j2869038154062_1_alg».proof.Proof.Gen.KernelIdeal.Frame
import proofs.«146412_j2869038154062_1_alg».proof.Proof.RefRead
import proofs.«146412_j2869038154062_1_alg».proof.Proof.LibPlainMatmul
import Idealize.ShloMosaic.Lib.ValueLayout

set_option maxRecDepth 16384

noncomputable section

namespace Cert.KernelIdeal.Reg1

open Cert.KernelIdeal Cert.KernelIdeal.Gen
open Idealize.ShloMosaic Idealize.ShloMosaic.TcCoe Idealize.SL.Sem
open Idealize.ShloMosaic.Pipeline (Dat)
open Idealize.ShloMosaic.ValueIdx

open Cert.ReferenceIdeal.ReadP in
section
private theorem zeroOffsets2 : (![0, 0] : Fin 2 → Nat) = fun _ => 0 := funext fun a => by fin_cases a <;> rfl
private theorem zeroOffsets1 : (![0] : Fin 1 → Nat) = fun _ => 0 := funext fun a => by fin_cases a; rfl

/-- One entry of a block's payload: the bias added to the aggregate's row, clamped at zero from below, and the result's
    row times the second weight matrix's column. -/
private theorem biasReluMatmul_apply (a : Vec Ideal S10000x100 .f32) (b : Vec Ideal S100 .f32) (w : Vec Ideal S100x64 .f32)
    (p : Fin 10000) (q : Fin 64) :
    k1_pay1 (F := Ideal) a b w (ix2 p q)
      = ∑ k : Fin 100, max (a (ix2 p k) + b (ix1 k)) (Ideal.ofBits .f32 0x00000000#32) * w (ix2 k q) := by
  unfold k1_pay1
  refine (Cert.Lib.PlainMatmul.apply (M := 10000) (K := 100) (N := 64) dot_S10000x100_S100x64_S10000x64_1_0_0_1_n_n
    rfl rfl rfl rfl rfl rfl none _ _ p q).trans ?_
  refine Finset.sum_congr rfl fun k _ => ?_
  rw [truncf_apply, truncf_apply, maximumf_apply, addf_apply, broadcast_apply, shapeCast_self,
    Cert.Lib.PlainMatmul.rowSpread_apply, shapeCast_a_1a_apply]
  rfl

/-- Where each window's block sits at a grid point: the aggregate's and the output's blocks are the point's band of
    rows, all columns; the bias and the weight matrix are whole at every point. -/
private theorem blockIndex : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at a point, at row p and column k, is the array's entry at row 10000 t + p, column k. -/
private theorem aggBlock_apply (V : (c : Dev nD) → (b : Ref sig .tc) → Buf (Elt Ideal) ((c : Thread nD τ).loc b)) (c : Dev nD) (t : Fin cfg1.N)
    (p : Fin 10000) (k : Fin 100) (i : S50000x100.Idx) (h0 : (i 0).val = t.val * 10000 + p.val) (h1 : (i 1).val = k.val) :
    (iblk1 V c 0 t : Vec Ideal S10000x100 .f32) (ix2 p k) = (V c main_v45 : S50000x100.Idx → Elt Ideal .f32) i := by
  obtain ⟨e00, e01, -⟩ := blockIndex t
  unfold iblk1
  rw [View.read_apply]
  show V c main_v45 _ = V c main_v45 _
  congr 1
  funext a
  apply Fin.ext
  match a with
  | ⟨0, _⟩ => show win1_0.index t (0 : Fin 2) * 10000 + 1 * p.val = (i 0).val; rw [e00, h0]; omega
  | ⟨1, _⟩ => show win1_0.index t (1 : Fin 2) * 100 + 1 * k.val = (i 1).val; rw [e01, h1]; omega

/-- The bias's block at any point is the whole bias. -/
private theorem biasBlock_apply (V : (c : Dev nD) → (b : Ref sig .tc) → Buf (Elt Ideal) ((c : Thread nD τ).loc b)) (c : Dev nD) (t : Fin cfg1.N)
    (k : Fin 100) (i : S100.Idx) (h0 : (i 0).val = k.val) :
    (iblk1 V c 1 t : Vec Ideal S100 .f32) (ix1 k) = (V c main_arg3 : S100.Idx → Elt Ideal .f32) i := by
  obtain ⟨-, -, e10, -⟩ := blockIndex t
  unfold iblk1
  rw [View.read_apply]
  show V c main_arg3 _ = V c main_arg3 _
  congr 1
  funext a
  apply Fin.ext
  match a with
  | ⟨0, _⟩ => show win1_1.index t (0 : Fin 1) * 100 + 1 * k.val = (i 0).val; rw [e10, h0]; omega

/-- The weight matrix's block at any point is the whole matrix. -/
private theorem weightBlock_apply (V : (c : Dev nD) → (b : Ref sig .tc) → Buf (Elt Ideal) ((c : Thread nD τ).loc b)) (c : Dev nD) (t : Fin cfg1.N)
    (k : Fin 100) (q : Fin 64) (i : S100x64.Idx) (h0 : (i 0).val = k.val) (h1 : (i 1).val = q.val) :
    (iblk1 V c 2 t : Vec Ideal S100x64 .f32) (ix2 k q) = (V c main_arg4 : S100x64.Idx → Elt Ideal .f32) i := by
  obtain ⟨-, -, -, e20, e21, -⟩ := blockIndex t
  unfold iblk1
  rw [View.read_apply]
  show V c main_arg4 _ = V c main_arg4 _
  congr 1
  funext a
  apply Fin.ext
  match a with
  | ⟨0, _⟩ => show win1_2.index t (0 : Fin 2) * 100 + 1 * k.val = (i 0).val; rw [e20, h0]; omega
  | ⟨1, _⟩ => show win1_2.index t (1 : Fin 2) * 64 + 1 * q.val = (i 1).val; rw [e21, h1]; omega

/-- A block whose every entry is the array function's entry under the output window's block at a point is what that
    point's write-back writes of the function. -/
private theorem outBlock_of_pointwise (t : Fin cfg1.N) (P : Vec Ideal S10000x64 .f32) (G : S50000x64.Idx → Elt Ideal .f32)
    (h : ∀ y : S10000x64.Idx, P y = G (((cfg1.win 3).blk t).view.emb y)) :
    (cfg1.win 3).cut (grid1.coords t) P = ((cfg1.win 3).blk t).view.read (Elt Ideal) G :=
  funext fun y => h y

/-- What a grid point writes back is its band of rows of the reference's product stage. -/
private theorem flushed_eq (V : (c : Dev nD) → (b : Ref sig .tc) → Buf (Elt Ideal) ((c : Thread nD τ).loc b)) (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal)) (x3 : (⟨Cert.ReferenceIdeal.S100, .f32⟩ : BufTy).Contents (Elt Ideal)) (x4 : (⟨Cert.ReferenceIdeal.S100x64, .f32⟩ : BufTy).Contents (Elt Ideal))
    (hA : V c main_v45 = Cert.ReferenceIdeal.ReadP.val_main_v45 (F := Ideal) x0 x1 x2) (h3 : V c main_arg3 = x3) (h4 : V c main_arg4 = x4) (t : Fin cfg1.N) :
    (dat1 (F := Ideal) V c).flushed 3 t
      = ((cfg1.win 3).blk t).view.read (Elt Ideal) (Cert.ReferenceIdeal.ReadP.val_main_v50 (F := Ideal) x0 x1 x2 x3 x4) := by
  show (cfg1.win 3).cut (grid1.coords t) ((dat1 V c).after 3 t) = _
  rw [after1_3]
  unfold out1_3
  rw [View.canon_unit_zero zeroOffsets2]
  rw [View.ld_unit_zero (S := S10000x100) zeroOffsets2, View.ld_unit_zero (S := S100) zeroOffsets1,
    View.ld_unit_zero (S := S100x64) zeroOffsets2]
  refine outBlock_of_pointwise t _ _ fun y => ?_
  obtain ⟨-, -, -, -, -, e30, e31⟩ := blockIndex t
  obtain ⟨p, q, rfl⟩ : ∃ (p : Fin 10000) (q : Fin 64), y = ix2 p q := ⟨y 0, y 1, eq_ix2 y⟩
  refine (biasReluMatmul_apply _ _ _ p q).trans ?_
  rw [val_main_v50_apply]
  refine Finset.sum_congr rfl fun k _ => ?_
  rw [val_main_v49_apply, val_main_v48_apply, val_main_call1_v0_apply, val_main_call1_cst_apply, val_main_v47_apply,
    val_main_v46_apply]
  have ha := aggBlock_apply V c t p k (lidx_main_v50 (((cfg1.win 3).blk t).view.emb (ix2 p q)) k)
    (by show win1_3.index t (0 : Fin 2) * 10000 + 1 * p.val = t.val * 10000 + p.val; rw [e30]; omega) rfl
  have hb := biasBlock_apply V c t k
    (idx_main_v46 (idx_main_v47 (lidx_main_v50 (((cfg1.win 3).blk t).view.emb (ix2 p q)) k))) rfl
  have hw := weightBlock_apply V c t k q (ridx_main_v50 (((cfg1.win 3).blk t).view.emb (ix2 p q)) k) rfl
    (by show win1_3.index t (1 : Fin 2) * 64 + 1 * q.val = q.val; rw [e31]; omega)
  rw [ha, hb, hw, hA, h3, h4]
  generalize val_main_v45 (F := Ideal) x0 x1 x2 = A
  rfl

/-- An entry of the output array lies in a point's block exactly when its row is in the point's band of rows. -/
private theorem mem_outBlock (t : Fin cfg1.N) (i : S50000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v46).slice (win1_3.rect t)).set ↔ _
  rw [View.set_slice_whole, Rect.mem_set_unit]
  exact Iff.rfl

/-- The five bands of 10000 rows tile the 50000 rows: row r is in the band of point r / 10000, which writes back. -/
private theorem covered (i : S50000x64.Idx) :
    ∃ t : Fin cfg1.N, (cfg1.win 3).flush t = true ∧ i ∈ ((cfg1.win 3).blk t).view.set := by
  have hN : grid1.N = 5 := N_1
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, by show _ < grid1.N; rw [hN]; omega⟩, rfl⟩
  obtain ⟨-, -, -, -, -, e30, e31⟩ := blockIndex t
  refine ⟨t, flush1_3 t, ?_⟩
  rw [mem_outBlock]
  intro a
  match a with
  | ⟨0, _⟩ =>
    show win1_3.index t (0 : Fin 2) * 10000 ≤ (i 0).val ∧ (i 0).val < win1_3.index t (0 : Fin 2) * 10000 + 10000
    rw [e30, ht]; omega
  | ⟨1, _⟩ =>
    show win1_3.index t (1 : Fin 2) * 64 ≤ (i 1).val ∧ (i 1).val < win1_3.index t (1 : Fin 2) * 64 + 64
    rw [e31]; omega

end

/-- The second region's output array after its five grid points. -/
theorem final (V : (c : Dev nD) → (b : Ref sig .tc) → Buf (Elt Ideal) ((c : Thread nD τ).loc b)) (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal)) (x3 : (⟨Cert.ReferenceIdeal.S100, .f32⟩ : BufTy).Contents (Elt Ideal)) (x4 : (⟨Cert.ReferenceIdeal.S100x64, .f32⟩ : BufTy).Contents (Elt Ideal))
    (hA : V c main_v45 = Cert.ReferenceIdeal.ReadP.val_main_v45 (F := Ideal) x0 x1 x2) (h3 : V c main_arg3 = x3) (h4 : V c main_arg4 = x4) :
    (dat1 (F := Ideal) V c).arrAt 3 cfg1.N = Cert.ReferenceIdeal.ReadP.val_main_v50 (F := Ideal) x0 x1 x2 x3 x4 := by
  exact (dat1 (F := Ideal) V c).arrAt_eq_of_cover 3 _ (fun t _ => flushed_eq V c x0 x1 x2 x3 x4 hA h3 h4 t) covered

end Cert.KernelIdeal.Reg1

end
-- ==== Proof.Reg2.lean ====
import proofs.«146412_j2869038154062_1_alg».proof.Proof.Gen.KernelIdeal.Frame
import proofs.«146412_j2869038154062_1_alg».proof.Proof.RefRead
import Idealize.ShloMosaic.Lib.ValueLayout

set_option maxRecDepth 16384

noncomputable section

namespace Cert.KernelIdeal.Reg2

open Cert.KernelIdeal Cert.KernelIdeal.Gen
open Idealize.ShloMosaic Idealize.ShloMosaic.TcCoe Idealize.SL.Sem
open Idealize.ShloMosaic.Pipeline (Dat)
open Idealize.ShloMosaic.ValueIdx

/-! # The third region: bias, then each row over its Euclidean norm

The region's grid has five points; point `t` owns rows `10000·t … 10000·t + 9999` of the aggregated array `A`
(`[50000, 64]`) and of the output, and every point sees the whole bias row `b` (`[64]`). With `s(p, q) = A(p, q) + b(q)`
the body stores, at `(p, q)` of its block, `s(p, q) / max (√(∑ k, s(p, k)²), ε)`, `ε` a literal floor that is the same word
in the reference and is never evaluated. Rows are normalized independently, so block `t` of the output is block `t` of
the reference's normalized array, and the five blocks tile the array's rows: the assembled output is that array.

The steps: the two column layouts the keep-dimension row sum passes through, read at an index; the body's stored block
at `(p, q)` as the formula above over its two loaded blocks; the reference's last stage at `(r, q)` as the same formula
over the aggregated array and the bias; each point's write-back as a block of the reference's array (the index maps
decided over the grid, a block coordinate being block index × block size + offset inside the block); the blocks cover
every row (row `r` lies in block `r / 10000`). -/

/-! ## Two column layouts read at an index -/

section Column
variable {α : Type}

/-- An `[a]` array cast to the column `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The body's payload at an index -/

/-- The biased entry `a(p, q) + b(q)` of a block `a` and the bias row `b`. -/
private abbrev biased (a : FVec Ideal S10000x64 .f32) (b : FVec Ideal S64 .f32) (p : Fin 10000) (q : Fin 64) : EReal :=
  a (ix2 p q) + b (ix1 q)

/-- The stored block at `(p, q)`: the biased entry over the larger of its row's Euclidean norm and the floor constant. -/
private theorem normalize_apply (a : FVec Ideal S10000x64 .f32) (b : FVec Ideal S64 .f32) (p : Fin 10000) (q : Fin 64) :
    k2_pay1 (F := Ideal) a b (ix2 p q)
      = Ideal.div (biased a b p q)
          (max (Ideal.sqrt (∑ k : Fin 64, biased a b p k * biased a b p k)) (Ideal.ofBits .f32 0x2B8CBCCC#32)) := by
  unfold k2_pay1
  dsimp only
  have hs : ∀ k : Fin 64, addf (shapeCast S10000x64 a shapeCasts_S10000x64_S10000x64)
      (broadcastTo S10000x64 (shapeCast S1x64 b shapeCasts_S64_S1x64) broadcasts_S1x64_S10000x64) (ix2 p k) = biased a b p k := fun k => by
    rw [addf_apply, shapeCast_self, broadcastTo_1b_ab_apply, shapeCast_a_1a_apply]
  rw [divf_apply, hs, broadcastTo_a1_ab_apply, maximumf_apply, broadcast_apply]
  show Ideal.div _ (max (Ideal.sqrt (shapeCast S10000x1 _ _ (ix2 p (0 : Fin 1)))) _) = _
  rw [shapeCast_a_a1_apply]
  refine congrArg (fun z => Ideal.div _ (max (Ideal.sqrt z) _)) ?_
  refine (Ideal.multiReduction_add_single _ _ reduces_S10000x64_S10000 _ _ (ix1 p)).trans ?_
  show (∑ k : Fin 64, mulf _ _ (reduces_S10000x64_S10000.lift (ix1 p) k)) = _
  refine Finset.sum_congr rfl fun k _ => ?_
  rw [show reduces_S10000x64_S10000.lift (ix1 p) k = ix2 p k from
    funext fun ax => Fin.ext (by match ax with | ⟨0, _⟩ => rfl | ⟨1, _⟩ => rfl)]
  rw [mulf_apply, hs]
/-! ## The reference's last stage at an index -/

section Reference
open Cert.ReferenceIdeal.ReadP

/-- The reference's biased array at `(r, k)`: the aggregated entry plus the bias of column `k`. -/
private theorem ref_biased_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal)) (x3 : (⟨Cert.ReferenceIdeal.S100, .f32⟩ : BufTy).Contents (Elt Ideal)) (x4 : (⟨Cert.ReferenceIdeal.S100x64, .f32⟩ : BufTy).Contents (Elt Ideal)) (x5 : (⟨Cert.ReferenceIdeal.S64, .f32⟩ : BufTy).Contents (Elt Ideal)) (r : Fin 50000) (k : Fin 64) :
    val_main_v91 (F := Ideal) x0 x1 x2 x3 x4 x5 (ix2 r k)
      = val_main_v88 (F := Ideal) x0 x1 x2 x3 x4 (ix2 r k) + x5 (ix1 k) := by
  rw [val_main_v91_apply, val_main_v90_apply, val_main_v89_apply]
  exact congrArg (fun j => val_main_v88 (F := Ideal) x0 x1 x2 x3 x4 (ix2 r k) + x5 j)
    (funext fun ax => Fin.ext (by match ax with | ⟨0, _⟩ => rfl))

/-- The index the reference's row sum reads at its `k`th term, behind the column form and its broadcast: `(r, k)`. -/
private theorem ref_rowTerm_idx (r : Fin 50000) (q k : Fin 64) :
    idx_main_v93 (idx_main_v94 (idx_main_v98 (ix2 r q))) k = ix2 r k :=
  funext fun ax => Fin.ext (by match ax with | ⟨0, _⟩ => rfl | ⟨1, _⟩ => rfl)

/-- The reference's sum of squares along row `r`, term by term. -/
private theorem ref_sqsum (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal)) (x3 : (⟨Cert.ReferenceIdeal.S100, .f32⟩ : BufTy).Contents (Elt Ideal)) (x4 : (⟨Cert.ReferenceIdeal.S100x64, .f32⟩ : BufTy).Contents (Elt Ideal)) (x5 : (⟨Cert.ReferenceIdeal.S64, .f32⟩ : BufTy).Contents (Elt Ideal)) (r : Fin 50000) (q : Fin 64) :
    (∑ k : Fin 64, val_main_v92 (F := Ideal) x0 x1 x2 x3 x4 x5 (idx_main_v93 (idx_main_v94 (idx_main_v98 (ix2 r q))) k))
      = ∑ k : Fin 64, (val_main_v88 (F := Ideal) x0 x1 x2 x3 x4 (ix2 r k) + x5 (ix1 k))
          * (val_main_v88 (F := Ideal) x0 x1 x2 x3 x4 (ix2 r k) + x5 (ix1 k)) :=
  Finset.sum_congr rfl fun k _ => by rw [ref_rowTerm_idx, val_main_v92_apply, ref_biased_apply, Ideal.mulf_def]

/-- The reference's normalized array at `(r, q)`: the biased entry of the aggregated array over the larger of its row's
    Euclidean norm and the floor constant. -/
private theorem ref_normalize_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal)) (x3 : (⟨Cert.ReferenceIdeal.S100, .f32⟩ : BufTy).Contents (Elt Ideal)) (x4 : (⟨Cert.ReferenceIdeal.S100x64, .f32⟩ : BufTy).Contents (Elt Ideal)) (x5 : (⟨Cert.ReferenceIdeal.S64, .f32⟩ : BufTy).Contents (Elt Ideal))
    (r : Fin 50000) (q : Fin 64) :
    val_main_v99 (F := Ideal) x0 x1 x2 x3 x4 x5 (ix2 r q)
      = Ideal.div (val_main_v88 (F := Ideal) x0 x1 x2 x3 x4 (ix2 r q) + x5 (ix1 q))
          (max (Ideal.sqrt (∑ k : Fin 64, (val_main_v88 (F := Ideal) x0 x1 x2 x3 x4 (ix2 r k) + x5 (ix1 k))
              * (val_main_v88 (F := Ideal) x0 x1 x2 x3 x4 (ix2 r k) + x5 (ix1 k))))
            (Ideal.ofBits .f32 0x2B8CBCCC#32)) := by
  rw [val_main_v99_apply, val_main_v98_apply, val_main_v97_apply, val_main_v95_apply, val_main_v94_apply,
    val_main_v93_apply, val_main_v96_apply, val_main_cst_23_apply, val_main_cst_22_apply, ref_biased_apply]
  simp only [Ideal.hostDivf_def, Ideal.maximumf_def, Ideal.hostUnary_sqrt_def, Ideal.ofBits_def, Ideal.ofBits_zero_f32, zero_add]
  rw [ref_sqsum]

end Reference
/-! ## From the blocks to the array -/

/-- A whole-block access of a rank-2 buffer starts at the origin. -/
private theorem origin2 : (![0, 0] : Fin 2 → Nat) = fun _ => 0 := funext fun a => by fin_cases a <;> rfl
/-- A whole-block access of a rank-1 buffer starts at the origin. -/
private theorem origin1 : (![0] : Fin 1 → Nat) = fun _ => 0 := funext fun a => by fin_cases a; rfl

/-- The printed index maps, decided over the grid: the aggregated array and the output move one row block per point and
    keep every column; the bias row stays where it is. -/
private theorem block_index : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- Point `t` writes back block `t` of the reference's normalized array: rows `10000·t + p`, all columns. -/
private theorem writeback_eq (V : (c : Dev nD) → (b : Ref sig .tc) → Buf (Elt Ideal) ((c : Thread nD τ).loc b)) (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal)) (x3 : (⟨Cert.ReferenceIdeal.S100, .f32⟩ : BufTy).Contents (Elt Ideal)) (x4 : (⟨Cert.ReferenceIdeal.S100x64, .f32⟩ : BufTy).Contents (Elt Ideal)) (x5 : (⟨Cert.ReferenceIdeal.S64, .f32⟩ : BufTy).Contents (Elt Ideal))
    (hA : V c main_v59 = Cert.ReferenceIdeal.ReadP.val_main_v88 (F := Ideal) x0 x1 x2 x3 x4) (h5 : V c main_arg5 = x5) (t : Fin cfg2.N) :
    (dat2 (F := Ideal) V c).flushed 2 t
      = ((cfg2.win 2).blk t).view.read (Elt Ideal) (Cert.ReferenceIdeal.ReadP.val_main_v99 (F := Ideal) x0 x1 x2 x3 x4 x5) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S64) origin1]
  obtain ⟨e0, e1, e2, e3, e4⟩ := block_index t
  funext y
  obtain ⟨p, q, rfl⟩ : ∃ (p : Fin 10000) (q : Fin 64), y = ix2 p q := ⟨y 0, y 1, eq_ix2 y⟩
  have ht : t.val < 5 := by have h := t.isLt; have hN : cfg2.N = 5 := N_2; omega
  have hp : p.val < 10000 := p.isLt
  show k2_pay1 (F := Ideal) (iblk2 V c 0 t) (iblk2 V c 1 t) (ix2 p q)
      = Cert.ReferenceIdeal.ReadP.val_main_v99 (F := Ideal) x0 x1 x2 x3 x4 x5 (((cfg2.win 2).blk t).view.emb (ix2 p q))
  have hout : ((cfg2.win 2).blk t).view.emb (ix2 p q) = ix2 (⟨t.val * 10000 + p.val, by omega⟩ : Fin 50000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [hout, ref_normalize_apply]
  refine (normalize_apply _ _ p q).trans ?_
  have hagg : ∀ k : Fin 64, iblk2 V c 0 t (ix2 p k)
      = Cert.ReferenceIdeal.ReadP.val_main_v88 (F := Ideal) x0 x1 x2 x3 x4 (ix2 (⟨t.val * 10000 + p.val, by omega⟩ : Fin 50000) k) := fun k => by
    unfold iblk2
    show V c main_v59 (((cfg2.win 0).blk t).view.emb (ix2 p k)) = _
    rw [hA]
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  have hbias : ∀ k : Fin 64, iblk2 V c 1 t (ix1 k) = x5 (ix1 k) := fun k => by
    unfold iblk2
    show V c main_arg5 (((cfg2.win 1).blk t).view.emb (ix1 k)) = _
    rw [h5]
    refine congrArg _ (funext fun a => Fin.ext ?_)
    match a with
    | ⟨0, _⟩ => show win2_1.index t (0 : Fin 1) * 64 + 1 * k.val = k.val; omega
  simp only [biased, hagg, hbias]

/-- An index of the output array is in point `t`'s block iff each coordinate is in the block's range on its axis. -/
private theorem mem_rowBlock (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v60).slice (win2_2.rect t)).set ↔ _
  rw [View.set_slice_whole, Rect.mem_set_unit]
  exact Iff.rfl

/-- Every index of the output array lies in the block of the point its row falls in: row `r` in block `r / 10000`. -/
private theorem rows_covered (i : S50000x64.Idx) : ∃ t : Fin cfg2.N, (cfg2.win 2).flush t = true ∧ i ∈ ((cfg2.win 2).blk t).view.set := by
  have hN : cfg2.N = 5 := N_2
  have hi0 : (i 0).val < 50000 := (i 0).isLt
  have hi1 : (i 1).val < 64 := (i 1).isLt
  have hlt : (i 0).val / 10000 < cfg2.N := by omega
  refine ⟨⟨(i 0).val / 10000, hlt⟩, flush2_2 _, ?_⟩
  rw [mem_rowBlock]
  obtain ⟨e0, e1, e2, e3, e4⟩ := block_index ⟨(i 0).val / 10000, hlt⟩
  have e3' : win2_2.index ⟨(i 0).val / 10000, hlt⟩ (0 : Fin 2) = (i 0).val / 10000 := e3
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    omega
  | ⟨1, _⟩ =>
    show win2_2.index ⟨(i 0).val / 10000, hlt⟩ (1 : Fin 2) * 64 ≤ (i 1).val
      ∧ (i 1).val < win2_2.index ⟨(i 0).val / 10000, hlt⟩ (1 : Fin 2) * 64 + 64
    omega

/-- The third region's output array after its five grid points. -/
theorem final (V : (c : Dev nD) → (b : Ref sig .tc) → Buf (Elt Ideal) ((c : Thread nD τ).loc b)) (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal)) (x3 : (⟨Cert.ReferenceIdeal.S100, .f32⟩ : BufTy).Contents (Elt Ideal)) (x4 : (⟨Cert.ReferenceIdeal.S100x64, .f32⟩ : BufTy).Contents (Elt Ideal)) (x5 : (⟨Cert.ReferenceIdeal.S64, .f32⟩ : BufTy).Contents (Elt Ideal))
    (hA : V c main_v59 = Cert.ReferenceIdeal.ReadP.val_main_v88 (F := Ideal) x0 x1 x2 x3 x4) (h5 : V c main_arg5 = x5) :
    (dat2 (F := Ideal) V c).arrAt 2 cfg2.N = Cert.ReferenceIdeal.ReadP.val_main_v99 (F := Ideal) x0 x1 x2 x3 x4 x5 := by
  exact (dat2 (F := Ideal) V c).arrAt_eq_of_cover 2 _ (fun t _ => writeback_eq V c x0 x1 x2 x3 x4 x5 hA h5 t) rows_covered

end Cert.KernelIdeal.Reg2

end
-- ==== Proof.Pre.lean ====
import proofs.«146412_j2869038154062_1_alg».proof.Proof.Gen.KernelIdeal.Frame
import proofs.«146412_j2869038154062_1_alg».proof.Proof.RefRead

set_option maxRecDepth 16384

noncomputable section

namespace Cert.KernelIdeal.Pre

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A host stretch leaves a buffer that none of its operations writes as it found it. -/
local macro "stretch_keeps " r:term : tactic =>
  `(tactic| exact StableHlo.after_of_forall_not_mem (b := Proc.devRef .tc $r) _ _ (List.forall_iff_forall_mem.mp (by
      simp only [hostOps0, hostOps0_1, hostOps0_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- At the first region's entry the first argument array is as launched. -/
theorem w3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps main_arg0
    _ = W1 m ρ c (Proc.devRef .tc main_arg0) := by stretch_keeps main_arg0
    _ = W0 m ρ c (Proc.devRef .tc main_arg0) := by stretch_keeps main_arg0
    _ = m ((c : Thread nD τ).loc main_arg0) := rfl

/-- At the first region's entry the third argument array is as launched. -/
theorem w3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps main_arg2
    _ = W1 m ρ c (Proc.devRef .tc main_arg2) := by stretch_keeps main_arg2
    _ = W0 m ρ c (Proc.devRef .tc main_arg2) := by stretch_keeps main_arg2
    _ = m ((c : Thread nD τ).loc main_arg2) := rfl

/-! ### The first host stretch, over any contents `Wx` it starts from: the buffers it writes are the reference's
    stages of the edge list `Wx main_arg1` -/

/-- The source indices: the edge list's first row, then the self loops. -/
private theorem w1_src (Wx : Valuation τ sig (Elt Ideal)) :
    StableHlo.after hostOps0 Wx (Proc.devRef .tc main_v3)
      = Cert.ReferenceIdeal.ReadP.val_main_v3 (F := Ideal) (Wx (Proc.devRef .tc main_arg1)) := by
  after_results
  unfold Cert.ReferenceIdeal.ReadP.val_main_v3 Cert.ReferenceIdeal.ReadP.val_main_v2
    Cert.ReferenceIdeal.ReadP.val_main_v1 Cert.ReferenceIdeal.ReadP.val_main_v0
  rfl

/-- The destination indices: the edge list's second row, then the self loops. -/
private theorem w1_dst (Wx : Valuation τ sig (Elt Ideal)) :
    StableHlo.after hostOps0 Wx (Proc.devRef .tc main_v6)
      = Cert.ReferenceIdeal.ReadP.val_main_v6 (F := Ideal) (Wx (Proc.devRef .tc main_arg1)) := by
  after_results
  unfold Cert.ReferenceIdeal.ReadP.val_main_v6 Cert.ReferenceIdeal.ReadP.val_main_v5
    Cert.ReferenceIdeal.ReadP.val_main_v4 Cert.ReferenceIdeal.ReadP.val_main_v0
  rfl

/-- Which nodes have a positive degree (the degree is the scatter-add of ones at the destinations). -/
private theorem w1_pos (Wx : Valuation τ sig (Elt Ideal)) :
    StableHlo.after hostOps0 Wx (Proc.devRef .tc main_v12)
      = Cert.ReferenceIdeal.ReadP.val_main_v13 (F := Ideal) (Wx (Proc.devRef .tc main_arg1)) := by
  after_results
  unfold Cert.ReferenceIdeal.ReadP.val_main_v13
    Cert.ReferenceIdeal.ReadP.val_main_v12
    Cert.ReferenceIdeal.ReadP.val_main_cst_1
    Cert.ReferenceIdeal.ReadP.val_main_v11
    Cert.ReferenceIdeal.ReadP.val_main_v10
    Cert.ReferenceIdeal.ReadP.val_main_v9
    Cert.ReferenceIdeal.ReadP.val_main_cst_0
    Cert.ReferenceIdeal.ReadP.val_main_v8
    Cert.ReferenceIdeal.ReadP.val_main_cst
    Cert.ReferenceIdeal.ReadP.val_main_v6
    Cert.ReferenceIdeal.ReadP.val_main_v5
    Cert.ReferenceIdeal.ReadP.val_main_v4
    Cert.ReferenceIdeal.ReadP.val_main_v0
  rfl

/-- The reciprocal square root of the degree raised to at least one. -/
private theorem w1_rsqrt (Wx : Valuation τ sig (Elt Ideal)) :
    StableHlo.after hostOps0 Wx (Proc.devRef .tc main_v15)
      = Cert.ReferenceIdeal.ReadP.val_main_v16 (F := Ideal) (Wx (Proc.devRef .tc main_arg1)) := by
  after_results
  unfold Cert.ReferenceIdeal.ReadP.val_main_v16
    Cert.ReferenceIdeal.ReadP.val_main_v15
    Cert.ReferenceIdeal.ReadP.val_main_v14
    Cert.ReferenceIdeal.ReadP.val_main_cst_2
    Cert.ReferenceIdeal.ReadP.val_main_v11
    Cert.ReferenceIdeal.ReadP.val_main_v10
    Cert.ReferenceIdeal.ReadP.val_main_v9
    Cert.ReferenceIdeal.ReadP.val_main_cst_0
    Cert.ReferenceIdeal.ReadP.val_main_v8
    Cert.ReferenceIdeal.ReadP.val_main_cst
    Cert.ReferenceIdeal.ReadP.val_main_v6
    Cert.ReferenceIdeal.ReadP.val_main_v5
    Cert.ReferenceIdeal.ReadP.val_main_v4
    Cert.ReferenceIdeal.ReadP.val_main_v0
  rfl

/-- The zero the select falls back to. -/
private theorem w1_zero (Wx : Valuation τ sig (Elt Ideal)) :
    StableHlo.after hostOps0 Wx (Proc.devRef .tc main_cst_3)
      = Cert.ReferenceIdeal.ReadP.val_main_cst_3 (F := Ideal) := by
  after_results
  rfl

/-! ### The second host stretch (the select), over any contents it starts from -/

/-- The select of the second stretch, from the three buffers it reads. -/
private theorem w2_dinv (Wx : Valuation τ sig (Elt Ideal)) (a1 : (⟨S2x800000, .i32⟩ : BufTy).Contents (Elt Ideal))
    (h12 : Wx (Proc.devRef .tc main_v12) = Cert.ReferenceIdeal.ReadP.val_main_v13 (F := Ideal) a1)
    (h15 : Wx (Proc.devRef .tc main_v15) = Cert.ReferenceIdeal.ReadP.val_main_v16 (F := Ideal) a1)
    (hc3 : Wx (Proc.devRef .tc main_cst_3) = Cert.ReferenceIdeal.ReadP.val_main_cst_3 (F := Ideal)) :
    StableHlo.after hostOps0_1 Wx (Proc.devRef .tc main_v16)
      = Cert.ReferenceIdeal.ReadP.val_main_v17 (F := Ideal) a1 := by
  after_results
  show select (Wx (Proc.devRef .tc main_v12)) (Wx (Proc.devRef .tc main_v15))
      (broadcastInDim S50000 ![] bcast_S_S50000 (id (Wx (Proc.devRef .tc main_cst_3)))) = _
  rw [h12, h15, hc3]
  unfold Cert.ReferenceIdeal.ReadP.val_main_v17
    Cert.ReferenceIdeal.ReadP.val_main_call0_v1
    Cert.ReferenceIdeal.ReadP.val_main_call0_v0
  rfl

/-! ### The third host stretch (the two gathers and their product), over any contents it starts from -/

/-- The per-edge weight from the three buffers the third stretch reads. -/
private theorem w3_norm_of (Wx : Valuation τ sig (Elt Ideal)) (a1 : (⟨S2x800000, .i32⟩ : BufTy).Contents (Elt Ideal))
    (h3 : Wx (Proc.devRef .tc main_v3) = Cert.ReferenceIdeal.ReadP.val_main_v3 (F := Ideal) a1)
    (h6 : Wx (Proc.devRef .tc main_v6) = Cert.ReferenceIdeal.ReadP.val_main_v6 (F := Ideal) a1)
    (h16 : Wx (Proc.devRef .tc main_v16) = Cert.ReferenceIdeal.ReadP.val_main_v17 (F := Ideal) a1) :
    StableHlo.after hostOps0_2 Wx (Proc.devRef .tc main_v31)
      = Cert.ReferenceIdeal.ReadP.val_main_v32 (F := Ideal) a1 := by
  after_results_simp
  rw [h3, h6, h16]
  unfold Cert.ReferenceIdeal.ReadP.val_main_v32
    Cert.ReferenceIdeal.ReadP.val_main_v31
    Cert.ReferenceIdeal.ReadP.val_main_v30
    Cert.ReferenceIdeal.ReadP.val_main_v29
    Cert.ReferenceIdeal.ReadP.val_main_v28
    Cert.ReferenceIdeal.ReadP.val_main_v27
    Cert.ReferenceIdeal.ReadP.val_main_c_6
    Cert.ReferenceIdeal.ReadP.val_main_v26
    Cert.ReferenceIdeal.ReadP.val_main_v25
    Cert.ReferenceIdeal.ReadP.val_main_c_5
    Cert.ReferenceIdeal.ReadP.val_main_v24
    Cert.ReferenceIdeal.ReadP.val_main_v23
    Cert.ReferenceIdeal.ReadP.val_main_v22
    Cert.ReferenceIdeal.ReadP.val_main_v21
    Cert.ReferenceIdeal.ReadP.val_main_v20
    Cert.ReferenceIdeal.ReadP.val_main_c_4
    Cert.ReferenceIdeal.ReadP.val_main_v19
    Cert.ReferenceIdeal.ReadP.val_main_v18
    Cert.ReferenceIdeal.ReadP.val_main_c
  rfl

/-! ### At the first region's entry -/

/-- The source indices (edge sources followed by the self loops), as the host computed them before the first region. -/
theorem w3_src (c : Dev nD) : W3 m ρ c (Proc.devRef .tc main_v3) = Cert.ReferenceIdeal.ReadP.val_main_v3 (F := Ideal) (m ((c : Thread nD τ).loc main_arg1)) :=
  calc W3 m ρ c (Proc.devRef .tc main_v3)
    _ = W2 m ρ c (Proc.devRef .tc main_v3) := by stretch_keeps main_v3
    _ = W1 m ρ c (Proc.devRef .tc main_v3) := by stretch_keeps main_v3
    _ = _ := w1_src (W0 m ρ c)

/-- The destination indices. -/
theorem w3_dst (c : Dev nD) : W3 m ρ c (Proc.devRef .tc main_v6) = Cert.ReferenceIdeal.ReadP.val_main_v6 (F := Ideal) (m ((c : Thread nD τ).loc main_arg1)) :=
  calc W3 m ρ c (Proc.devRef .tc main_v6)
    _ = W2 m ρ c (Proc.devRef .tc main_v6) := by stretch_keeps main_v6
    _ = W1 m ρ c (Proc.devRef .tc main_v6) := by stretch_keeps main_v6
    _ = _ := w1_dst (W0 m ρ c)

/-- The per-edge normalisation weights. -/
theorem w3_norm (c : Dev nD) : W3 m ρ c (Proc.devRef .tc main_v31) = Cert.ReferenceIdeal.ReadP.val_main_v32 (F := Ideal) (m ((c : Thread nD τ).loc main_arg1)) := by
  have h3 : W2 m ρ c (Proc.devRef .tc main_v3)
      = Cert.ReferenceIdeal.ReadP.val_main_v3 (F := Ideal) (m ((c : Thread nD τ).loc main_arg1)) :=
    calc W2 m ρ c (Proc.devRef .tc main_v3)
      _ = W1 m ρ c (Proc.devRef .tc main_v3) := by stretch_keeps main_v3
      _ = _ := w1_src (W0 m ρ c)
  have h6 : W2 m ρ c (Proc.devRef .tc main_v6)
      = Cert.ReferenceIdeal.ReadP.val_main_v6 (F := Ideal) (m ((c : Thread nD τ).loc main_arg1)) :=
    calc W2 m ρ c (Proc.devRef .tc main_v6)
      _ = W1 m ρ c (Proc.devRef .tc main_v6) := by stretch_keeps main_v6
      _ = _ := w1_dst (W0 m ρ c)
  have h16 : W2 m ρ c (Proc.devRef .tc main_v16)
      = Cert.ReferenceIdeal.ReadP.val_main_v17 (F := Ideal) (m ((c : Thread nD τ).loc main_arg1)) :=
    w2_dinv (W1 m ρ c) _ (w1_pos (W0 m ρ c)) (w1_rsqrt (W0 m ρ c)) (w1_zero (W0 m ρ c))
  exact w3_norm_of (W2 m ρ c) _ h3 h6 h16

end Cert.KernelIdeal.Pre

end
-- ==== Proof.Mid.lean ====
import proofs.«146412_j2869038154062_1_alg».proof.Proof.Gen.KernelIdeal.Frame
import proofs.«146412_j2869038154062_1_alg».proof.Proof.RefRead

set_option maxRecDepth 16384

noncomputable section

namespace Cert.KernelIdeal.Mid

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first aggregation (gather by source, scale, scatter-add by destination) of the first region's output. -/
theorem w5_agg (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal))
    (hh : W4 m ρ c (Proc.devRef .tc main_v32) = Cert.ReferenceIdeal.ReadP.val_main_v7 (F := Ideal) x0 x2)
    (hs : W3 m ρ c (Proc.devRef .tc main_v3) = Cert.ReferenceIdeal.ReadP.val_main_v3 (F := Ideal) x1)
    (hd : W3 m ρ c (Proc.devRef .tc main_v6) = Cert.ReferenceIdeal.ReadP.val_main_v6 (F := Ideal) x1)
    (hn : W3 m ρ c (Proc.devRef .tc main_v31) = Cert.ReferenceIdeal.ReadP.val_main_v32 (F := Ideal) x1) :
    W5 m ρ c (Proc.devRef .tc main_v45) = Cert.ReferenceIdeal.ReadP.val_main_v45 (F := Ideal) x0 x1 x2 := by
  -- The source, destination and weight buffers are not arrays of the first region, which leaves them as entered.
  have h3 : W4 m ρ c (Proc.devRef .tc main_v3) = Cert.ReferenceIdeal.ReadP.val_main_v3 (F := Ideal) x1 :=
    (W4_of_ne m ρ c main_v3 (by decide)).trans hs
  have h6 : W4 m ρ c (Proc.devRef .tc main_v6) = Cert.ReferenceIdeal.ReadP.val_main_v6 (F := Ideal) x1 :=
    (W4_of_ne m ρ c main_v6 (by decide)).trans hd
  have h31 : W4 m ρ c (Proc.devRef .tc main_v31) = Cert.ReferenceIdeal.ReadP.val_main_v32 (F := Ideal) x1 :=
    (W4_of_ne m ρ c main_v31 (by decide)).trans hn
  show StableHlo.after hostOps1 (W4 m ρ c) (Proc.devRef .tc main_v45) = _
  generalize W4 m ρ c = Wx at hh h3 h6 h31 ⊢
  -- The sixteen operations read at the result buffer: a gather of the first region's output by the wrapped source
  -- indices, a scaling by the broadcast weights, and a scatter-add by destination into zeros, over the four operands.
  after_results_simp
  rw [hh, h3, h6, h31]
  -- The reference applies the same operations stage by stage to the same four operands; its shape and
  -- dimension-number constants are the same literals.
  simp only [Cert.ReferenceIdeal.ReadP.val_main_v45, Cert.ReferenceIdeal.ReadP.val_main_v44,
    Cert.ReferenceIdeal.ReadP.val_main_v43, Cert.ReferenceIdeal.ReadP.val_main_v42,
    Cert.ReferenceIdeal.ReadP.val_main_v41, Cert.ReferenceIdeal.ReadP.val_main_v40,
    Cert.ReferenceIdeal.ReadP.val_main_v39, Cert.ReferenceIdeal.ReadP.val_main_v38,
    Cert.ReferenceIdeal.ReadP.val_main_v37, Cert.ReferenceIdeal.ReadP.val_main_v36,
    Cert.ReferenceIdeal.ReadP.val_main_v35, Cert.ReferenceIdeal.ReadP.val_main_v34,
    Cert.ReferenceIdeal.ReadP.val_main_v33, Cert.ReferenceIdeal.ReadP.val_main_cst_9,
    Cert.ReferenceIdeal.ReadP.val_main_c_7, Cert.ReferenceIdeal.ReadP.val_main_c_8]
  rfl

/-- At the second region's entry the first bias is as launched. -/
theorem w5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- At the second region's entry the second weight matrix is as launched. -/
theorem w5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

end Cert.KernelIdeal.Mid

end
-- ==== Proof.Post.lean ====
import proofs.«146412_j2869038154062_1_alg».proof.Proof.Gen.KernelIdeal.Frame
import proofs.«146412_j2869038154062_1_alg».proof.Proof.RefRead

set_option maxRecDepth 16384

noncomputable section

namespace Cert.KernelIdeal.Post

open Cert.KernelIdeal Cert.KernelIdeal.Gen
open Idealize.ShloMosaic Idealize.ShloMosaic.TcCoe Idealize.SL.Sem
open Idealize.ShloMosaic.Pipeline (Dat)

section Weights

variable {F : FTy → Type} [FloatOps F]

open Cert.ReferenceIdeal.ReadP in
/-- The second layer's in-degree count is the first layer's: the same scatter of ones by destination into zeros. -/
private theorem deg_again (x1 : (⟨Cert.ReferenceIdeal.S2x800000, .i32⟩ : BufTy).Contents (Elt F)) :
    val_main_v54 (F := F) x1 = val_main_v11 (F := F) x1 := by
  unfold val_main_v54 val_main_v52 val_main_cst_11 val_main_v53 val_main_v51 val_main_cst_10
    val_main_v11 val_main_v9 val_main_cst_0 val_main_v10 val_main_v8 val_main_cst
  rfl

open Cert.ReferenceIdeal.ReadP in
/-- Hence the same inverse square root of the degree, zero where the degree is zero. -/
private theorem norm_again (x1 : (⟨Cert.ReferenceIdeal.S2x800000, .i32⟩ : BufTy).Contents (Elt F)) :
    val_main_v60 (F := F) x1 = val_main_v17 (F := F) x1 := by
  unfold val_main_v60 val_main_v56 val_main_v55 val_main_cst_12 val_main_v59 val_main_v58 val_main_v57 val_main_cst_13
    val_main_call2_v1 val_main_call2_v0 val_main_cst_14
    val_main_v17 val_main_v13 val_main_v12 val_main_cst_1 val_main_v16 val_main_v15 val_main_v14 val_main_cst_2
    val_main_call0_v1 val_main_call0_v0 val_main_cst_3
  rw [deg_again]

open Cert.ReferenceIdeal.ReadP in
/-- The normaliser gathered at the (wrapped) source indices. -/
private theorem src_again (x1 : (⟨Cert.ReferenceIdeal.S2x800000, .i32⟩ : BufTy).Contents (Elt F)) :
    val_main_v67 (F := F) x1 = val_main_v24 (F := F) x1 := by
  unfold val_main_v67 val_main_v66 val_main_v65 val_main_v62 val_main_v61 val_main_c_15 val_main_v64 val_main_v63 val_main_c_16
    val_main_v24 val_main_v23 val_main_v22 val_main_v19 val_main_v18 val_main_c val_main_v21 val_main_v20 val_main_c_4
  rw [norm_again]

open Cert.ReferenceIdeal.ReadP in
/-- The normaliser gathered at the (wrapped) destination indices. -/
private theorem dst_again (x1 : (⟨Cert.ReferenceIdeal.S2x800000, .i32⟩ : BufTy).Contents (Elt F)) :
    val_main_v74 (F := F) x1 = val_main_v31 (F := F) x1 := by
  unfold val_main_v74 val_main_v73 val_main_v72 val_main_v69 val_main_v68 val_main_c_17 val_main_v71 val_main_v70 val_main_c_18
    val_main_v31 val_main_v30 val_main_v29 val_main_v26 val_main_v25 val_main_c_5 val_main_v28 val_main_v27 val_main_c_6
  rw [norm_again]

/-- The reference recomputes the per-edge weights for its second layer by the same operations over the same index
    vectors: the two chains agree. -/
theorem weights_again (x1 : (⟨Cert.ReferenceIdeal.S2x800000, .i32⟩ : BufTy).Contents (Elt F)) :
    Cert.ReferenceIdeal.ReadP.val_main_v75 (F := F) x1 = Cert.ReferenceIdeal.ReadP.val_main_v32 (F := F) x1 := by
  unfold Cert.ReferenceIdeal.ReadP.val_main_v75 Cert.ReferenceIdeal.ReadP.val_main_v32
  rw [src_again, dst_again]

end Weights

variable (m : (ℓ : Loc nD τ sig) → Buf (Elt Ideal) ℓ) (ρ : Dev nD → PrngReg)

/-- A buffer that is no array of the first two regions and that the stretch between them does not write holds at the
    second region's exit what it held at the first region's entry. -/
private theorem w6_v3 (c : Dev nD) : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
private theorem w6_v6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
private theorem w6_v31 (c : Dev nD) : W6 m ρ c (Proc.devRef .tc main_v31) = W3 m ρ c (Proc.devRef .tc main_v31) :=
  calc W6 m ρ c (Proc.devRef .tc main_v31)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v31) := W4_of_ne m ρ c main_v31 (by decide)

set_option maxHeartbeats 4000000 in
/-- The second aggregation of the second region's output. -/
theorem w7_agg (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x100, .f32⟩ : BufTy).Contents (Elt Ideal)) (x3 : (⟨Cert.ReferenceIdeal.S100, .f32⟩ : BufTy).Contents (Elt Ideal)) (x4 : (⟨Cert.ReferenceIdeal.S100x64, .f32⟩ : BufTy).Contents (Elt Ideal))
    (hh : W6 m ρ c (Proc.devRef .tc main_v46) = Cert.ReferenceIdeal.ReadP.val_main_v50 (F := Ideal) x0 x1 x2 x3 x4)
    (hs : W3 m ρ c (Proc.devRef .tc main_v3) = Cert.ReferenceIdeal.ReadP.val_main_v3 (F := Ideal) x1)
    (hd : W3 m ρ c (Proc.devRef .tc main_v6) = Cert.ReferenceIdeal.ReadP.val_main_v6 (F := Ideal) x1)
    (hn : W3 m ρ c (Proc.devRef .tc main_v31) = Cert.ReferenceIdeal.ReadP.val_main_v32 (F := Ideal) x1) :
    W7 m ρ c (Proc.devRef .tc main_v59) = Cert.ReferenceIdeal.ReadP.val_main_v88 (F := Ideal) x0 x1 x2 x3 x4 := by
  -- the index vectors and the weights are untouched since the first region's entry; the weights are also the
  -- reference's second chain
  have hs6 := (w6_v3 m ρ c).trans hs
  have hd6 := (w6_v6 m ρ c).trans hd
  have hn6 := ((w6_v31 m ρ c).trans hn).trans (weights_again (F := Ideal) x1).symm
  show StableHlo.after hostOps2 (W6 m ρ c) (Proc.devRef .tc main_v59) = _
  generalize W6 m ρ c = Wx at hh hs6 hd6 hn6 ⊢
  -- the stretch read at its last result: the rows gathered at the source index (wrapped where negative), each scaled
  -- by its edge's weight broadcast along the feature axis, added by destination into zeros
  after_results
  rw [hh, hs6, hd6, hn6]
  -- the reference's stages 76 … 88 are the same operations over the same operands
  unfold Cert.ReferenceIdeal.ReadP.val_main_v88 Cert.ReferenceIdeal.ReadP.val_main_v86 Cert.ReferenceIdeal.ReadP.val_main_cst_21
    Cert.ReferenceIdeal.ReadP.val_main_v87 Cert.ReferenceIdeal.ReadP.val_main_v85 Cert.ReferenceIdeal.ReadP.val_main_v82
    Cert.ReferenceIdeal.ReadP.val_main_v81 Cert.ReferenceIdeal.ReadP.val_main_v80 Cert.ReferenceIdeal.ReadP.val_main_v77
    Cert.ReferenceIdeal.ReadP.val_main_v76 Cert.ReferenceIdeal.ReadP.val_main_c_19 Cert.ReferenceIdeal.ReadP.val_main_v79
    Cert.ReferenceIdeal.ReadP.val_main_v78 Cert.ReferenceIdeal.ReadP.val_main_c_20 Cert.ReferenceIdeal.ReadP.val_main_v84
    Cert.ReferenceIdeal.ReadP.val_main_v83
  rfl

/-- At the third region's entry the second bias is as launched. -/
theorem w7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

end Cert.KernelIdeal.Post

end
-- ==== Proof.Whole.lean ====
import proofs.«146412_j2869038154062_1_alg».proof.Proof.KRun
import proofs.«146412_j2869038154062_1_alg».proof.Proof.Reg0
import proofs.«146412_j2869038154062_1_alg».proof.Proof.Reg1
import proofs.«146412_j2869038154062_1_alg».proof.Proof.Reg2
import proofs.«146412_j2869038154062_1_alg».proof.Proof.Pre
import proofs.«146412_j2869038154062_1_alg».proof.Proof.Mid
import proofs.«146412_j2869038154062_1_alg».proof.Proof.Post

/-!
  The kernel program's result as the reference's last stage.

  The program is three row-blocked kernels with the same host gather / scale / scatter-add between them that the
  reference applies. Region by region: the first kernel's array is the whole product x·W1 (the reference's first
  matrix product); the host stretch after it aggregates it over the edges exactly as the reference does; the second
  kernel's array is relu(· + b1)·W2 of that (the reference's bias, relu and second product); the second host stretch
  aggregates again; the third kernel's array is the rows of (· + b2) divided by max(their Euclidean norm, ε) (the
  reference's closing normalisation). Chained, the last region's output array holds the reference's last stage of
  the six arguments.
-/

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The last boundary's contents at the result buffer: the reference's last stage of the launch contents of the six
    arguments. -/
theorem out_eq (c : Dev nD) :
    W8 m ρ c (Proc.devRef .tc main_v60)
      = Cert.ReferenceIdeal.ReadP.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hs := Pre.w3_src m ρ c
  have hd := Pre.w3_dst m ρ c
  have hn := Pre.w3_norm m ρ c
  have hv32 : W4 m ρ c (Proc.devRef .tc main_v32) = Cert.ReferenceIdeal.ReadP.val_main_v7 (F := Ideal) (m ((c : Thread nD τ).loc main_arg0)) (m ((c : Thread nD τ).loc main_arg2)) :=
    (W4_arr m ρ c 2).trans (Reg0.final (V3 m ρ) c _ _ (Pre.w3_arg0 m ρ c) (Pre.w3_arg2 m ρ c))
  have hv45 : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) :=
    Mid.w5_agg m ρ c _ _ _ hv32 hs hd hn
  have hv46 : W6 m ρ c (Proc.devRef .tc main_v46) = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (W6_arr m ρ c 3).trans (Reg1.final (V5 m ρ) c _ _ _ _ _ hv45 (Mid.w5_arg3 m ρ c) (Mid.w5_arg4 m ρ c))
  have hv59 : W7 m ρ c (Proc.devRef .tc main_v59) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    Post.w7_agg m ρ c _ _ _ _ _ hv46 hs hd hn
  exact (W8_arr m ρ c 2).trans (Reg2.final (V7 m ρ) c _ _ _ _ _ _ hv59 (Post.w7_arg5 m ρ c))

/-- The kernel program's run with its result read: every weakly fair execution terminates with the result array at
    the reference's last stage of the arguments, and the arguments unchanged. -/
theorem run : θ_run defs (onTc (τ := τ) (main (F := Ideal))) ⟨m, fun _ => 0, ρ⟩ (fun r => ∀ c : Dev nD,
      r.2.mem ((c.tc : Thread nD τ).loc main_v60)
        = Cert.ReferenceIdeal.ReadP.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_eq m ρ c), (h c).2⟩) (Cert.KernelIdeal.Named.run_named m ρ)

end Cert.KernelIdeal.Whole

end
-- ==== Proof.RefValue.lean ====
import proofs.«146412_j2869038154062_1_alg».proof.Proof.RefRun
import proofs.«146412_j2869038154062_1_alg».proof.Proof.RefRead

/-!
  The reference's result as the last stage of its operations.

  The reference's run ends with its result buffer at the fold of its 132 host operations over the launch contents. The
  first seven operations build the two index vectors (the edge list's two rows, each followed by the self loops
  0 … 49999); every later operation reads those two vectors and the six arguments only through buffers the first seven
  leave in place. So the fold is cut after the seventh operation: the two index vectors are read off the short prefix,
  the remaining operations are read back over the prefix's contents taken as a whole, and what is left is, stage by
  stage, the composition the per-operation stage functions define.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The contents after two runs of operations in a row are the second run's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 8192 in
set_option maxHeartbeats 8000000 in
/-- The fold of the reference's operations at its result buffer is the last stage of the arguments. -/
theorem fold_eq (m : (ℓ : Loc nD τ sig) → Buf (Elt F) ℓ) (c : Dev nD) :
    after (ops (F := F)) (launchContents m c) (Proc.devRef .tc main_v99)
      = val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : (ops (F := F)) = ops.take 7 ++ ops.drop 7 := (List.take_append_drop 7 _).symm
  rw [e, after_append]
  generalize hW : after ((ops (F := F)).take 7) (launchContents m c) = W1
  have h3 : W1 (Proc.devRef .tc main_v3) = val_main_v3 (F := F) (m ((c.tc : Thread nD τ).loc main_arg1)) := by
    rw [← hW]; simp only [ops, List.take_succ_cons, List.take_zero]; after_results; rfl
  have h6 : W1 (Proc.devRef .tc main_v6) = val_main_v6 (F := F) (m ((c.tc : Thread nD τ).loc main_arg1)) := by
    rw [← hW]; simp only [ops, List.take_succ_cons, List.take_zero]; after_results; rfl
  have a0 : W1 (Proc.devRef .tc main_arg0) = (m ((c.tc : Thread nD τ).loc main_arg0)) := by
    rw [← hW]; simp only [ops, List.take_succ_cons, List.take_zero]; after_results
  have a2 : W1 (Proc.devRef .tc main_arg2) = (m ((c.tc : Thread nD τ).loc main_arg2)) := by
    rw [← hW]; simp only [ops, List.take_succ_cons, List.take_zero]; after_results
  have a3 : W1 (Proc.devRef .tc main_arg3) = (m ((c.tc : Thread nD τ).loc main_arg3)) := by
    rw [← hW]; simp only [ops, List.take_succ_cons, List.take_zero]; after_results
  have a4 : W1 (Proc.devRef .tc main_arg4) = (m ((c.tc : Thread nD τ).loc main_arg4)) := by
    rw [← hW]; simp only [ops, List.take_succ_cons, List.take_zero]; after_results
  have a5 : W1 (Proc.devRef .tc main_arg5) = (m ((c.tc : Thread nD τ).loc main_arg5)) := by
    rw [← hW]; simp only [ops, List.take_succ_cons, List.take_zero]; after_results
  clear hW e
  simp only [ops, List.drop_succ_cons, List.drop_zero]
  after_results_simp
  simp only [h3, h6, a0, a2, a3, a4, a5]
  rfl

end Cert.ReferenceIdeal.RefValue

end
-- ==== Proof.lean ====
/-
  A two-layer graph convolution (x·W1 → aggregate over the edges with symmetric degree weights → + b1, relu, ·W2 →
  aggregate again → + b2, rows divided by max(Euclidean norm, ε)) as three row-blocked kernels with the gather /
  scale / scatter-add on the host between them, against the same network written with whole-array operations.

  At the ideal values (floats extended reals, operations exact, a change of float format the identity) the two
  programs apply the SAME host operations to the edge list and to each layer's features; what differs is that each
  dense stage is computed by a kernel over five blocks of 10000 rows where the reference applies one whole-array
  operation. Block by block the kernels' outputs are restrictions of the reference's stages: a row block of a matrix
  product is the product of the row block; bias, relu and the row-wise normalisation act row by row. So each region's
  output array IS the reference's stage at that point, the host stretches carry equal values to equal values, and the
  two results are one function of the arguments. No algebraic law beyond reading sums index by index is used, so the
  precondition (finite inputs) is never opened.

  The frames of the two kernel programs are the generated ones; the reference's frame is its run with the result
  dropped; no rewrite was applied when the kernel was idealized, so there is nothing to preserve.
-/
import proofs.«146412_j2869038154062_1_alg».proof.Defs
import proofs.«146412_j2869038154062_1_alg».proof.Proof.Gen.Kernel
import proofs.«146412_j2869038154062_1_alg».proof.Proof.Gen.Kernel.Skeleton
import proofs.«146412_j2869038154062_1_alg».proof.Proof.Gen.Kernel.Launch
import proofs.«146412_j2869038154062_1_alg».proof.Proof.Gen.Kernel.Points
import proofs.«146412_j2869038154062_1_alg».proof.Proof.Gen.Kernel.Frame
import proofs.«146412_j2869038154062_1_alg».proof.Proof.Gen.KernelIdeal
import proofs.«146412_j2869038154062_1_alg».proof.Proof.Gen.KernelIdeal.Skeleton
import proofs.«146412_j2869038154062_1_alg».proof.Proof.Gen.KernelIdeal.Launch
import proofs.«146412_j2869038154062_1_alg».proof.Proof.Gen.KernelIdeal.Points
import proofs.«146412_j2869038154062_1_alg».proof.Proof.Gen.KernelIdeal.Frame
import proofs.«146412_j2869038154062_1_alg».proof.Proof.Gen.ReferenceIdeal
import proofs.«146412_j2869038154062_1_alg».proof.Proof.Gen.Pre_finite_inputs
import Idealize.ShloMosaic.Adequacy
import Idealize.ShloMosaic.Init
import proofs.«146412_j2869038154062_1_alg».proof.Proof.Whole
import proofs.«146412_j2869038154062_1_alg».proof.Proof.RefRun
import proofs.«146412_j2869038154062_1_alg».proof.Proof.RefRead
import proofs.«146412_j2869038154062_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in their result arrays. -/
theorem algebraic : Cert.algebraic_KernelIdeal_ReferenceIdeal := by
  intro m ρ m' ρ' _ hagree
  refine ⟨fun c => Cert.ReferenceIdeal.ReadP.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.fold_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
